-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4x4096x4096 .f32) (main_arg1 : FVec F S4096x16 .f32) (main_arg2 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S4x4096x4096 : Shape := ⟨3, ![4, 4096, 4096]⟩
abbrev S4096x16 : Shape := ⟨2, ![4096, 16]⟩
abbrev S16x4096 : Shape := ⟨2, ![16, 4096]⟩
abbrev S16384x4096 : Shape := ⟨2, ![16384, 4096]⟩
abbrev S512x4096 : Shape := ⟨2, ![512, 4096]⟩
abbrev S512x16 : Shape := ⟨2, ![512, 16]⟩
abbrev S512x1024 : Shape := ⟨2, ![512, 1024]⟩
abbrev S16x1024 : Shape := ⟨2, ![16, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S16x4096, .f32⟩
  | .hbm, ⟨3, _⟩ => ⟨S16384x4096, .f32⟩
  | .hbm, ⟨4, _⟩ => ⟨S16x4096, .f32⟩
  | .hbm, ⟨5, _⟩ => ⟨S16x4096, .bf16⟩
  | .hbm, ⟨6, _⟩ => ⟨S16x4096, .bf16⟩
  | .hbm, ⟨7, _⟩ => ⟨S16384x4096, .f32⟩
  | .hbm, ⟨8, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .bf16⟩
  | .local _ .vmem, ⟨3, _⟩ => ⟨S16x4096, .bf16⟩
  | .local _ .vmem, ⟨4, _⟩ => ⟨S512x4096, .f32⟩
  | .local _ .vmem, ⟨5, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  transposes_S4096x16_S16x4096_1_0 : S4096x16.Transposes [1, 0] S16x4096
  bitsLt_bf16_f32 : FTy.bits .bf16 < FTy.bits .f32
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  inb_S16x4096_S16x1024_0_0 : ∀ a, (![0, 0] : Fin 2 → Nat) a + S16x1024.size a ≤ S16x4096.size a
  h_S16x1024 : 0 < S16x1024.numel
  shapeCasts_S16x1024_S16x1024 : S16x1024.ShapeCasts S16x1024
  inb_S512x4096_S512x1024_0_1024 : ∀ a, (![0, 1024] : Fin 2 → Nat) a + S512x1024.size a ≤ S512x4096.size a
  inb_S16x4096_S16x1024_0_1024 : ∀ a, (![0, 1024] : Fin 2 → Nat) a + S16x1024.size a ≤ S16x4096.size a
  inb_S512x4096_S512x1024_0_2048 : ∀ a, (![0, 2048] : Fin 2 → Nat) a + S512x1024.size a ≤ S512x4096.size a
  inb_S16x4096_S16x1024_0_2048 : ∀ a, (![0, 2048] : Fin 2 → Nat) a + S16x1024.size a ≤ S16x4096.size a
  inb_S512x4096_S512x1024_0_3072 : ∀ a, (![0, 3072] : Fin 2 → Nat) a + S512x1024.size a ≤ S512x4096.size a
  inb_S16x4096_S16x1024_0_3072 : ∀ a, (![0, 3072] : Fin 2 → Nat) a + S16x1024.size a ≤ S16x4096.size a
  shapeCasts_S16384x4096_S4x4096x4096 : S16384x4096.ShapeCasts S4x4096x4096
  dot_S512x1024_S16x1024_S512x16_1_1_0_0_n_n_wf : DotDims.WF S512x1024 S16x1024 S512x16 [1] [1] [0] [0] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x16 : Shape := ⟨2, ![4096, 16]⟩
abbrev S16x4096 : Shape := ⟨2, ![16, 4096]⟩
abbrev S4x4096x16 : Shape := ⟨3, ![4, 4096, 16]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S16x4096, .f32⟩
  | .hbm, ⟨3, _⟩ => ⟨S4x4096x16, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Products.lean ====
/-
  The kernel's two matrix products read at an index over the extended reals.

  The first contracts a [512, 1024] piece of a block of rows with a [16, 1024] piece of a factor over their second
  axes: entry (r, j) of the product into zero is Σ_k x[r, k] · w[j, k]. The second contracts a [512, 16] array of
  coefficients with a [16, 1024] piece of the other factor over the sixteen coefficients: entry (r, d) is
  Σ_j c[r, j] · a[j, d]. Each operand index of a product is named coordinate by coordinate (the non-contracted axes read
  the output index, the contracted axis the summation index), and the sum over the one-axis contraction shape is
  re-indexed to a sum over `Fin 1024` or `Fin 16`. A change of float format and a cast to the same shape are the
  identity on extended reals, so the forms with those around the operands read the same.
-/
import proofs.«428179_j72198400245861_3_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## The contraction over 1024 positions -/

theorem lhs_contract_0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem lhs_contract_1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
theorem rhs_contract_0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem rhs_contract_1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

/-- Entry (r, j) of the product into zero of a [512, 1024] array with a [16, 1024] array, contracted over their second
    axes, is the sum over the 1024 positions of the products of the two rows' entries. -/
theorem contract_apply {φ₁ φ₂ : FTy} (x : FVec Ideal S512x1024 φ₁) (w : FVec Ideal S16x1024 φ₂) (r : Fin 512) (j : Fin 16) :
    matmul dot_S512x1024_S16x1024_S512x16_1_1_0_0_n_n none x w (constant (F := Ideal) S512x16 .f32 0x00000000#32) (ix2 r j)
      = ∑ k : Fin 1024, x (ix2 r k) * w (ix2 j k) := by
  simp only [matmul]
  rw [Ideal.matmul_constant_zero_apply, ← Equiv.sum_comp (contrEquiv1 dot_S512x1024_S16x1024_S512x16_1_1_0_0_n_n 1024 rfl rfl).symm]
  refine Finset.sum_congr rfl fun k _ => ?_
  have hk := contrEquiv1_symm_val dot_S512x1024_S16x1024_S512x16_1_1_0_0_n_n 1024 rfl rfl k
  have el : dot_S512x1024_S16x1024_S512x16_1_1_0_0_n_n.lhsIdx (ix2 r j) ((contrEquiv1 dot_S512x1024_S16x1024_S512x16_1_1_0_0_n_n 1024 rfl rfl).symm k) = ix2 r k := funext fun a => Fin.ext (by
    match a with
    | ⟨0, _⟩ => exact lhs_contract_0 _ _
    | ⟨1, _⟩ => exact (lhs_contract_1 _ _).trans hk)
  have er : dot_S512x1024_S16x1024_S512x16_1_1_0_0_n_n.rhsIdx (ix2 r j) ((contrEquiv1 dot_S512x1024_S16x1024_S512x16_1_1_0_0_n_n 1024 rfl rfl).symm k) = ix2 j k := funext fun a => Fin.ext (by
    match a with
    | ⟨0, _⟩ => exact rhs_contract_0 _ _
    | ⟨1, _⟩ => exact (rhs_contract_1 _ _).trans hk)
  rw [el, er]

/-- The same with the left operand narrowed from f32 after a cast to its own shape, and the right operand cast to its
    own shape: both are the identity on extended reals. -/
theorem contract_cast_apply (x : FVec Ideal S512x1024 .f32) (w : FVec Ideal S16x1024 .bf16) (r : Fin 512) (j : Fin 16) :
    matmul dot_S512x1024_S16x1024_S512x16_1_1_0_0_n_n none (truncf .bf16 (shapeCast S512x1024 x shapeCasts_S512x1024_S512x1024) bitsLt_bf16_f32)
        (shapeCast S16x1024 w shapeCasts_S16x1024_S16x1024) (constant (F := Ideal) S512x16 .f32 0x00000000#32) (ix2 r j)
      = ∑ k : Fin 1024, x (ix2 r k) * w (ix2 j k) := by
  refine (contract_apply _ _ r j).trans ?_
  rw [shapeCast_self, shapeCast_self]
  rfl

/-! ## The expansion over the sixteen coefficients -/

theorem lhs_expand_0 (i : S512x1024.Idx) (q : dot_S512x16_S16x1024_S512x1024_1_0_0_1_n_n.contr.Idx) :
    (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
theorem lhs_expand_1 (i : S512x1024.Idx) (q : dot_S512x16_S16x1024_S512x1024_1_0_0_1_n_n.contr.Idx) :
    (dot_S512x16_S16x1024_S512x1024_1_0_0_1_n_n.lhsIdx i q 1).val = (q ⟨0, by decide⟩).val :=
  dot_S512x16_S16x1024_S512x1024_1_0_0_1_n_n.lhsIdx_val_of_single rfl i q
theorem rhs_expand_0 (i : S512x1024.Idx) (q : dot_S512x16_S16x1024_S512x1024_1_0_0_1_n_n.contr.Idx) :
    (dot_S512x16_S16x1024_S512x1024_1_0_0_1_n_n.rhsIdx i q 0).val = (q ⟨0, by decide⟩).val :=
  dot_S512x16_S16x1024_S512x1024_1_0_0_1_n_n.rhsIdx_val_of_single rfl i q
theorem rhs_expand_1 (i : S512x1024.Idx) (q : dot_S512x16_S16x1024_S512x1024_1_0_0_1_n_n.contr.Idx) :
    (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl

/-- Entry (r, d) of the product into zero of a [512, 16] array with a [16, 1024] array is the sum over the sixteen
    coefficients of row r times column d. -/
theorem expand_apply {φ₁ φ₂ : FTy} (c : FVec Ideal S512x16 φ₁) (a : FVec Ideal S16x1024 φ₂) (r : Fin 512) (d : Fin 1024) :
    matmul dot_S512x16_S16x1024_S512x1024_1_0_0_1_n_n none c a (constant (F := Ideal) S512x1024 .f32 0x00000000#32) (ix2 r d)
      = ∑ j : Fin 16, c (ix2 r j) * a (ix2 j d) := by
  simp only [matmul]
  rw [Ideal.matmul_constant_zero_apply, ← Equiv.sum_comp (contrEquiv1 dot_S512x16_S16x1024_S512x1024_1_0_0_1_n_n 16 rfl rfl).symm]
  refine Finset.sum_congr rfl fun k _ => ?_
  have hk := contrEquiv1_symm_val dot_S512x16_S16x1024_S512x1024_1_0_0_1_n_n 16 rfl rfl k
  have el : dot_S512x16_S16x1024_S512x1024_1_0_0_1_n_n.lhsIdx (ix2 r d) ((contrEquiv1 dot_S512x16_S16x1024_S512x1024_1_0_0_1_n_n 16 rfl rfl).symm k) = ix2 r k := funext fun a => Fin.ext (by
    match a with
    | ⟨0, _⟩ => exact lhs_expand_0 _ _
    | ⟨1, _⟩ => exact (lhs_expand_1 _ _).trans hk)
  have er : dot_S512x16_S16x1024_S512x1024_1_0_0_1_n_n.rhsIdx (ix2 r d) ((contrEquiv1 dot_S512x16_S16x1024_S512x1024_1_0_0_1_n_n 16 rfl rfl).symm k) = ix2 k d := funext fun a => Fin.ext (by
    match a with
    | ⟨0, _⟩ => exact (rhs_expand_0 _ _).trans hk
    | ⟨1, _⟩ => exact rhs_expand_1 _ _)
  rw [el, er]

/-- The same with the right operand cast to its own shape. -/
theorem expand_cast_apply (c : FVec Ideal S512x16 .bf16) (a : FVec Ideal S16x1024 .bf16) (r : Fin 512) (d : Fin 1024) :
    matmul dot_S512x16_S16x1024_S512x1024_1_0_0_1_n_n none c (shapeCast S16x1024 a shapeCasts_S16x1024_S16x1024) (constant (F := Ideal) S512x1024 .f32 0x00000000#32) (ix2 r d)
      = ∑ j : Fin 16, c (ix2 r j) * a (ix2 j d) := by
  refine (expand_apply _ _ r d).trans ?_
  rw [shapeCast_self]

end Cert.KernelIdeal.Products

end
-- ==== Proof.Spec.lean ====
/-
  The low-rank projection  out[b, s, d] = Σ_j (Σ_k h[b, s, k] · B[j, k]) · A[d, j]  over the extended reals, with
  h of shape [4, 4096, 4096], A of shape [4096, 16] and B of shape [16, 4096]: first the contraction of each row of h
  with the sixteen rows of B over the 4096 positions, then the expansion of the sixteen coefficients by the rows of A.

  Stated here, over plain functions of literal index types:
    * `lowRank`: that function of the three arrays;
    * `blockOut`: what the same formula gives on a block of 512 rows when the inner contraction is taken as four
      partial sums over 1024 consecutive positions each, added in order onto zero;
    * `sum_quarters`: a sum over 4096 positions is the sum of its four quarters, so the two readings of the inner
      contraction agree (`accum_eq`). Only the commutative-monoid structure of addition is used: the statement
      holds at the infinities too;
    * `flatOut` and `reshape_flatOut`: the formula over the rows flattened to [16384, 4096], with A transposed,
      read back at [4, 4096, 4096], is `lowRank`: row b·4096 + s of the flattened array is row (b, s), and entry
      (j, d) of the transpose is entry (d, j).
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.LowRank

/-- The shapes of h, A, B, of h with its two leading axes flattened, and of a block of 512 flattened rows. -/
abbrev SH : Shape := ⟨3, ![4, 4096, 4096]⟩
abbrev SA : Shape := ⟨2, ![4096, 16]⟩
abbrev SB : Shape := ⟨2, ![16, 4096]⟩
abbrev SF : Shape := ⟨2, ![16384, 4096]⟩
abbrev SK : Shape := ⟨2, ![512, 4096]⟩

/-- Row (b, s) of h contracted with row j of B. -/
def proj (h : SH.Idx → EReal) (B : SB.Idx → EReal) (b : Fin 4) (s : Fin 4096) (j : Fin 16) : EReal :=
  ∑ k : Fin 4096, h (ix3 b s k) * B (ix2 j k)

/-- The low-rank projection. -/
def lowRank (h : SH.Idx → EReal) (A : SA.Idx → EReal) (B : SB.Idx → EReal) : SH.Idx → EReal :=
  fun i => ∑ j : Fin 16, proj h B ⟨(i 0).val, (i 0).isLt⟩ ⟨(i 1).val, (i 1).isLt⟩ j * A (ix2 ⟨(i 2).val, (i 2).isLt⟩ j)

/-! ## A sum over 4096 positions by quarters -/

/-- A sum over 4096 positions is the sum of its four quarters, added in order onto zero. -/
theorem sum_quarters {M : Type*} [AddCommMonoid M] (f : Fin 4096 → M) :
    ∑ q : Fin 4096, f q
      = (((0 + ∑ k : Fin 1024, f ⟨0 + k.val, by have := k.isLt; omega⟩)
            + ∑ k : Fin 1024, f ⟨1024 + k.val, by have := k.isLt; omega⟩)
          + ∑ k : Fin 1024, f ⟨2048 + k.val, by have := k.isLt; omega⟩)
        + ∑ k : Fin 1024, f ⟨3072 + k.val, by have := k.isLt; omega⟩ := by
  have e1 := Fin.sum_univ_add (a := 3072) (b := 1024) f
  have e2 := Fin.sum_univ_add (a := 2048) (b := 1024) fun i : Fin 3072 => f (Fin.castAdd 1024 i)
  have e3 := Fin.sum_univ_add (a := 1024) (b := 1024) fun i : Fin 2048 => f (Fin.castAdd 1024 (Fin.castAdd 1024 i))
  rw [zero_add]
  refine e1.trans ?_
  refine congrArg₂ (· + ·) (e2.trans (congrArg₂ (· + ·) (e3.trans (congrArg₂ (· + ·) ?_ ?_)) ?_)) ?_
  all_goals exact Finset.sum_congr rfl fun k _ => congrArg f (Fin.ext (by simp <;> omega))

/-! ## The formula on a block of 512 rows, the inner contraction by quarters -/

/-- Row r of a block contracted with row j of the factor over the 1024 positions from `o`. -/
def chunk (x : SK.Idx → EReal) (w : SB.Idx → EReal) (o : ℕ) (ho : o + 1024 ≤ 4096) (r : Fin 512) (j : Fin 16) : EReal :=
  ∑ k : Fin 1024, x (ix2 r ⟨o + k.val, by have := k.isLt; omega⟩) * w (ix2 j ⟨o + k.val, by have := k.isLt; omega⟩)

/-- The four partial contractions added in order onto zero. -/
def accum (x : SK.Idx → EReal) (w : SB.Idx → EReal) (r : Fin 512) (j : Fin 16) : EReal :=
  (((0 + chunk x w 0 (by omega) r j) + chunk x w 1024 (by omega) r j) + chunk x w 2048 (by omega) r j)
    + chunk x w 3072 (by omega) r j

/-- The accumulated partial contractions are the whole contraction. -/
theorem accum_eq (x : SK.Idx → EReal) (w : SB.Idx → EReal) (r : Fin 512) (j : Fin 16) :
    accum x w r j = ∑ k : Fin 4096, x (ix2 r k) * w (ix2 j k) :=
  (sum_quarters fun k : Fin 4096 => x (ix2 r k) * w (ix2 j k)).symm

/-- What the formula gives on a block of 512 rows: the accumulated coefficients expanded by the columns of `a`. -/
def blockOut (x : SK.Idx → EReal) (a w : SB.Idx → EReal) : SK.Idx → EReal :=
  fun y => ∑ j : Fin 16, accum x w ⟨(y 0).val, (y 0).isLt⟩ j * a (ix2 j ⟨(y 1).val, (y 1).isLt⟩)

/-! ## The formula over flattened rows -/

/-- The formula over the flattened rows, with the expanding factor given transposed. -/
def flatOut (h2 : SF.Idx → EReal) (a w : SB.Idx → EReal) : SF.Idx → EReal :=
  fun i => ∑ j : Fin 16, (∑ k : Fin 4096, h2 (ix2 ⟨(i 0).val, (i 0).isLt⟩ k) * w (ix2 j k)) * a (ix2 j ⟨(i 1).val, (i 1).isLt⟩)

/-- A block of 512 rows of the flattened array, starting at row `base`, gives the rows of `flatOut` from `base`. -/
theorem blockOut_eq_flatOut (x : SK.Idx → EReal) (h2 : SF.Idx → EReal) (a w : SB.Idx → EReal) (base : ℕ) (hb : base + 512 ≤ 16384)
    (hx : ∀ (r : Fin 512) (k : Fin 4096), x (ix2 r k) = h2 (ix2 ⟨base + r.val, by have := r.isLt; omega⟩ k))
    (y : SK.Idx) (i : SF.Idx) (h0 : (i 0).val = base + (y 0).val) (h1 : (i 1).val = (y 1).val) :
    blockOut x a w y = flatOut h2 a w i := by
  unfold blockOut flatOut
  refine Finset.sum_congr rfl fun j _ => ?_
  rw [accum_eq]
  refine congrArg₂ (· * ·) (Finset.sum_congr rfl fun k _ => congrArg (· * w (ix2 j k)) ?_)
    (congrArg (fun q => a (ix2 j q)) (Fin.ext h1.symm))
  exact (hx _ k).trans (congrArg (fun q => h2 (ix2 q k)) (Fin.ext h0.symm))

/-- The flattened formula over h flattened and A transposed, read back at [4, 4096, 4096], is the low-rank projection. -/
theorem reshape_flatOut (h : SH.Idx → EReal) (A : SA.Idx → EReal) (B : SB.Idx → EReal)
    (hc1 : SH.ShapeCasts SF) (hc2 : SF.ShapeCasts SH) (ht : SA.Transposes [1, 0] SB) :
    shapeCast SH (flatOut (shapeCast SF h hc1) (transpose SB [1, 0] A ht) B) hc2 = lowRank h A B := by
  funext i
  obtain ⟨b, s, d, rfl⟩ : ∃ (b : Fin 4) (s : Fin 4096) (d : Fin 4096), i = ix3 b s d := ⟨i 0, i 1, i 2, eq_ix3 i⟩
  have hrow : b.val * 4096 + s.val < 16384 := by have := b.isLt; have := s.isLt; omega
  refine (shapeCast_apply _ hc2 (ix3 b s d) (ix2 ⟨b.val * 4096 + s.val, hrow⟩ d) ?_).trans ?_
  · rw [Shape.rowMajor_val_two, Shape.rowMajor_val_three]; rfl
  unfold flatOut lowRank proj
  refine Finset.sum_congr rfl fun j _ => ?_
  refine congrArg₂ (· * ·) (Finset.sum_congr rfl fun k _ => congrArg (· * _) ?_) ?_
  · refine (shapeCast_apply h hc1 _ (ix3 b s k) ?_)
    rw [Shape.rowMajor_val_two, Shape.rowMajor_val_three]; rfl
  · refine transpose_apply [1, 0] A ht _ (ix2 d j) fun a => ?_
    match a with
    | ⟨0, _⟩ => rfl
    | ⟨1, _⟩ => rfl

end Cert.LowRank

end
-- ==== Proof.BlockValue.lean ====
/-
  What one grid point leaves in the output block, over the extended reals.

  The body reads its 512 rows of h in four pieces of 1024 columns and the factor B likewise, contracts piece with
  piece, and adds the four [512, 16] products in order onto zero: the coefficients. It then multiplies the
  coefficients with each of the four 1024-column pieces of the transposed factor and stores the four [512, 1024]
  products side by side. Each stored piece is therefore the restriction of ONE function of the block index,
  `Cert.LowRank.blockOut`: at (r, d) the sum over j of coefficient (r, j) times entry (j, d) of the transposed factor.
  The four stores tile the block, so the block holds that function everywhere.
-/
import proofs.«428179_j72198400245861_3_alg».proof.Proof.Gen.KernelIdeal.Frame
import proofs.«428179_j72198400245861_3_alg».proof.Proof.Products
import proofs.«428179_j72198400245861_3_alg».proof.Proof.Spec

set_option maxRecDepth 16384

noncomputable section

open scoped BigOperators

namespace Cert.KernelIdeal.Block

open Cert.KernelIdeal Cert.KernelIdeal.Gen Cert.KernelIdeal.Products Cert.LowRank
open Idealize.ShloMosaic Idealize.ShloMosaic.ValueIdx

/-! ## A piece of 1024 columns read at an index -/

/-- Columns `o … o + 1023` of a block of rows, at (r, k), are the block at (r, o + k). -/
theorem ld_rows (x0 : Vec Ideal S512x4096 .f32) (o : ℕ) (ho : o + 1024 ≤ 4096)
    (inb : ∀ a, (![0, o] : Fin 2 → Nat) a + S512x1024.size a ≤ S512x4096.size a) (r : Fin 512) (k : Fin 1024) :
    View.ld x0 (Rect.unit (s := S512x4096) ![0, o] S512x1024.size inb) (ix2 r k)
      = x0 (ix2 r ⟨o + k.val, by have := k.isLt; omega⟩) := by
  show x0 _ = x0 _
  congr 1
  funext a
  apply Fin.ext
  match a with
  | ⟨0, _⟩ => show 0 + 1 * r.val = r.val; omega
  | ⟨1, _⟩ => show o + 1 * k.val = o + k.val; omega

/-- Columns `o … o + 1023` of a [16, 4096] factor, at (j, k), are the factor at (j, o + k). -/
theorem ld_cols (w : Vec Ideal S16x4096 .bf16) (o : ℕ) (ho : o + 1024 ≤ 4096)
    (inb : ∀ a, (![0, o] : Fin 2 → Nat) a + S16x1024.size a ≤ S16x4096.size a) (j : Fin 16) (k : Fin 1024) :
    View.ld w (Rect.unit (s := S16x4096) ![0, o] S16x1024.size inb) (ix2 j k)
      = w (ix2 j ⟨o + k.val, by have := k.isLt; omega⟩) := by
  show w _ = w _
  congr 1
  funext a
  apply Fin.ext
  match a with
  | ⟨0, _⟩ => show 0 + 1 * j.val = j.val; omega
  | ⟨1, _⟩ => show o + 1 * k.val = o + k.val; omega

/-! ## The coefficients -/

/-- The narrowed accumulator at (r, j): zero plus the four partial contractions, in order. -/
theorem coeff_pieces (v1 v8 v15 v22 : FVec Ideal S512x1024 .f32) (v4 v11 v18 v25 : FVec Ideal S16x1024 .bf16) (r : Fin 512) (j : Fin 16) :
    k0_pay4 (F := Ideal) v1 v4 v8 v11 v15 v18 v22 v25 (ix2 r j)
      = (((0 + ∑ k : Fin 1024, v1 (ix2 r k) * v4 (ix2 j k)) + ∑ k : Fin 1024, v8 (ix2 r k) * v11 (ix2 j k))
          + ∑ k : Fin 1024, v15 (ix2 r k) * v18 (ix2 j k)) + ∑ k : Fin 1024, v22 (ix2 r k) * v25 (ix2 j k) := by
  unfold k0_pay4
  simp only [truncf_apply, addf_apply, broadcast_apply]
  refine congrArg₂ (· + ·) (congrArg₂ (· + ·) (congrArg₂ (· + ·) (congrArg₂ (· + ·) ?_ ?_) ?_) ?_) ?_
  · exact Ideal.ofBits_zero_f32
  · exact contract_cast_apply v1 v4 r j
  · exact contract_cast_apply v8 v11 r j
  · exact contract_cast_apply v15 v18 r j
  · exact contract_cast_apply v22 v25 r j

/-- Over the pieces of a block of rows `x0` and of the factor `x2`, the coefficients are the accumulated contraction. -/
theorem coeff_apply (x0 : Vec Ideal S512x4096 .f32) (x2 : Vec Ideal S16x4096 .bf16) (r : Fin 512) (j : Fin 16) :
    k0_pay4 (F := Ideal) (View.ld x0 r0_0) (View.ld x2 r0_1) (View.ld x0 r0_2) (View.ld x2 r0_3) (View.ld x0 r0_4) (View.ld x2 r0_5)
        (View.ld x0 r0_6) (View.ld x2 r0_7) (ix2 r j)
      = accum x0 x2 r j := by
  refine (coeff_pieces _ _ _ _ _ _ _ _ r j).trans ?_
  unfold accum chunk
  refine congrArg₂ (· + ·) (congrArg₂ (· + ·) (congrArg₂ (· + ·) (congrArg₂ (· + ·) rfl ?_) ?_) ?_) ?_
  · exact Finset.sum_congr rfl fun k _ => congrArg₂ (· * ·) (ld_rows x0 0 (by omega) _ r k) (ld_cols x2 0 (by omega) _ j k)
  · exact Finset.sum_congr rfl fun k _ => congrArg₂ (· * ·) (ld_rows x0 1024 (by omega) _ r k) (ld_cols x2 1024 (by omega) _ j k)
  · exact Finset.sum_congr rfl fun k _ => congrArg₂ (· * ·) (ld_rows x0 2048 (by omega) _ r k) (ld_cols x2 2048 (by omega) _ j k)
  · exact Finset.sum_congr rfl fun k _ => congrArg₂ (· * ·) (ld_rows x0 3072 (by omega) _ r k) (ld_cols x2 3072 (by omega) _ j k)

/-! ## The four stored products -/

/-- A product of coefficients `c` with columns `o … o + 1023` of the transposed factor `x1` is the restriction of
    `blockOut` to those columns of the block, when `c` are the accumulated contractions. -/
theorem piece_eq (x0 : Vec Ideal S512x4096 .f32) (x1 x2 : Vec Ideal S16x4096 .bf16) (o : ℕ) (ho : o + 1024 ≤ 4096)
    (inbA : ∀ a, (![0, o] : Fin 2 → Nat) a + S16x1024.size a ≤ S16x4096.size a)
    (inbO : ∀ a, (![0, o] : Fin 2 → Nat) a + S512x1024.size a ≤ S512x4096.size a)
    (c : FVec Ideal S512x16 .bf16) (hc : ∀ (r : Fin 512) (j : Fin 16), c (ix2 r j) = accum x0 x2 r j)
    (pay : FVec Ideal S512x1024 .f32)
    (hpay : ∀ (r : Fin 512) (d : Fin 1024), pay (ix2 r d)
      = ∑ j : Fin 16, c (ix2 r j) * View.ld x1 (Rect.unit (s := S16x4096) ![0, o] S16x1024.size inbA) (ix2 j d))
    (x : S512x1024.Idx) :
    pay x = blockOut x0 x1 x2 ((Rect.unit (s := S512x4096) ![0, o] S512x1024.size inbO).emb x) := by
  obtain ⟨r, d, rfl⟩ : ∃ (r : Fin 512) (d : Fin 1024), x = ix2 r d := ⟨x 0, x 1, eq_ix2 x⟩
  rw [hpay]
  unfold blockOut
  refine Finset.sum_congr rfl fun j _ => congrArg₂ (· * ·) ?_ ?_
  · refine (hc r j).trans (congrArg (fun q => accum x0 x2 q j) (Fin.ext ?_))
    show r.val = 0 + 1 * r.val
    omega
  · refine (ld_cols x1 o ho inbA j d).trans (congrArg (fun q => x1 (ix2 j q)) (Fin.ext ?_))
    show o + d.val = o + 1 * d.val
    omega

/-- The expansion payloads at an index. -/
theorem expand1_apply (c : FVec Ideal S512x16 .bf16) (a : FVec Ideal S16x1024 .bf16) (r : Fin 512) (d : Fin 1024) :
    k0_pay1 (F := Ideal) c a (ix2 r d) = ∑ j : Fin 16, c (ix2 r j) * a (ix2 j d) := by
  unfold k0_pay1; exact expand_cast_apply c a r d
theorem expand2_apply (c : FVec Ideal S512x16 .bf16) (a : FVec Ideal S16x1024 .bf16) (r : Fin 512) (d : Fin 1024) :
    k0_pay2 (F := Ideal) c a (ix2 r d) = ∑ j : Fin 16, c (ix2 r j) * a (ix2 j d) := by
  unfold k0_pay2; exact expand_cast_apply c a r d
theorem expand3_apply (c : FVec Ideal S512x16 .bf16) (a : FVec Ideal S16x1024 .bf16) (r : Fin 512) (d : Fin 1024) :
    k0_pay3 (F := Ideal) c a (ix2 r d) = ∑ j : Fin 16, c (ix2 r j) * a (ix2 j d) := by
  unfold k0_pay3; exact expand_cast_apply c a r d
theorem expand0_apply (v1 v8 v15 v22 : FVec Ideal S512x1024 .f32) (v4 v11 v18 v25 v30 : FVec Ideal S16x1024 .bf16) (r : Fin 512) (d : Fin 1024) :
    k0_pay5 (F := Ideal) v1 v4 v8 v11 v15 v18 v22 v25 v30 (ix2 r d)
      = ∑ j : Fin 16, k0_pay4 (F := Ideal) v1 v4 v8 v11 v15 v18 v22 v25 (ix2 r j) * v30 (ix2 j d) := by
  unfold k0_pay5; exact expand_cast_apply _ v30 r d

/-! ## The block -/

/-- After the body the output block holds `blockOut` of the three input blocks: rows of h, the transposed factor A
    and the factor B. -/
theorem out_eq (x0 : Vec Ideal S512x4096 .f32) (x1 x2 : Vec Ideal S16x4096 .bf16) :
    out0_3 (F := Ideal) x0 x1 x2 = blockOut x0 x1 x2 := by
  funext y
  unfold out0_3
  refine View.canon_apply_of_pieces (Val := Elt Ideal) (S := S512x4096) (e := .f32) (blockOut x0 x1 x2) _ ?_ y (cover0_3 _ _ _ _ y)
  intro p hp
  simp only [List.mem_cons, List.mem_nil_iff, or_false] at hp
  rcases hp with rfl | rfl | rfl | rfl
  · exact piece_eq x0 x1 x2 3072 (by omega) inb_S16x4096_S16x1024_0_3072 inb_S512x4096_S512x1024_0_3072 _ (coeff_apply x0 x2) _ (fun r d => expand3_apply _ _ r d)
  · exact piece_eq x0 x1 x2 2048 (by omega) inb_S16x4096_S16x1024_0_2048 inb_S512x4096_S512x1024_0_2048 _ (coeff_apply x0 x2) _ (fun r d => expand2_apply _ _ r d)
  · exact piece_eq x0 x1 x2 1024 (by omega) inb_S16x4096_S16x1024_0_1024 inb_S512x4096_S512x1024_0_1024 _ (coeff_apply x0 x2) _ (fun r d => expand1_apply _ _ r d)
  · exact piece_eq x0 x1 x2 0 (by omega) inb_S16x4096_S16x1024_0_0 inb_S512x4096_S512x1024_0_0 _ (coeff_apply x0 x2) _ (fun r d => expand0_apply _ _ _ _ _ _ _ _ _ r d)

end Cert.KernelIdeal.Block

end
-- ==== Proof.ArrayValue.lean ====
/-
  The idealized kernel's result array, over the extended reals.

  The program flattens h to [16384, 4096], transposes A to [16, 4096], launches the kernel over 32 blocks of 512
  flattened rows, and reshapes the [16384, 4096] result to [4, 4096, 4096]. Grid point t reads rows 512·t … 512·t + 511
  of the flattened h and the two whole factors, and writes the same rows of the result. By the block's value
  (`Block.out_eq`) what point t writes back is those rows of ONE function of the arrays, `Cert.LowRank.flatOut`; the
  32 blocks cover the result, so the result array is that function; its reshape, read through the flattening of h and
  the transposition of A, is `Cert.LowRank.lowRank` of the three arguments (`Cert.LowRank.reshape_flatOut`).
-/
import proofs.«428179_j72198400245861_3_alg».proof.Proof.Gen.KernelIdeal.Frame
import proofs.«428179_j72198400245861_3_alg».proof.Proof.BlockValue
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Cert.KernelIdeal.Block Cert.LowRank
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The index maps over the grid -/

/-- At every grid point the rows of h and of the result move together, block by block, within the 32 blocks; the two
    factors and the column axis stay at block zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks is some point's. -/
theorem idx_onto : ∀ q : Fin 32, ∃ t : Fin cfg0.N, win0_3.index t = ![q.val, 0] :=
  (by decide +kernel : ∀ q : Fin 32, ∃ t : Fin grid0.N, win0_3.index t = ![q.val, 0])

/-! ## The arrays the region finds -/

/-- The flattened h is h cast to [16384, 4096]. -/
theorem V_flat (c : Dev nD) : (V m c main_v0 : S16384x4096.Idx → EReal)
    = shapeCast S16384x4096 (m ((c : Thread nD τ).loc main_arg0) : S4x4096x4096.Idx → EReal) shapeCasts_S4x4096x4096_S16384x4096 := by
  show StableHlo.after hostOps0 (fun b => m (c, b)) (Proc.devRef .tc main_v0) = _
  after_results
  rfl

/-- The expanding factor as the kernel reads it is A transposed (its change of format is the identity). -/
theorem V_At (c : Dev nD) : (V m c main_v2 : S16x4096.Idx → EReal)
    = transpose S16x4096 [1, 0] (m ((c : Thread nD τ).loc main_arg1) : S4096x16.Idx → EReal) transposes_S4096x16_S16x4096_1_0 := by
  show StableHlo.after hostOps0 (fun b => m (c, b)) (Proc.devRef .tc main_v2) = _
  after_results
  rfl

/-- The contracting factor as the kernel reads it is B (its change of format is the identity). -/
theorem V_B (c : Dev nD) : (V m c main_v3 : S16x4096.Idx → EReal) = (m ((c : Thread nD τ).loc main_arg2) : S16x4096.Idx → EReal) := by
  show StableHlo.after hostOps0 (fun b => m (c, b)) (Proc.devRef .tc main_v3) = _
  after_results
  rfl

/-! ## The input blocks at a point -/

/-- The block of h at point t, at (r, k), is the flattened h at row (block index)·512 + r, column k. -/
theorem iblk0_apply (c : Dev nD) (t : Fin cfg0.N) (r : Fin 512) (k : Fin 4096)
    (hrow : win0_3.index t (0 : Fin 2) * 512 + r.val < 16384) :
    (iblk m c 0 t : FVec Ideal S512x4096 .f32) (ix2 r k)
      = (V m c main_v0 : S16384x4096.Idx → EReal) (ix2 ⟨win0_3.index t (0 : Fin 2) * 512 + r.val, hrow⟩ k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * r.val = win0_3.index t (0 : Fin 2) * 512 + r.val; rw [e0]; omega
  | ⟨1, _⟩ => show win0_0.index t (1 : Fin 2) * 4096 + 1 * k.val = k.val; rw [e1]; omega

/-- The block of the transposed factor at any point is the whole factor. -/
theorem iblk1_eq (c : Dev nD) (t : Fin cfg0.N) : (iblk m c 1 t : FVec Ideal S16x4096 .bf16) = (V m c main_v2 : S16x4096.Idx → EReal) := by
  obtain ⟨-, -, e0, e1, -⟩ := idx_facts t
  funext y
  unfold iblk
  rw [View.read_apply]
  show V m c main_v2 _ = V m c main_v2 _
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 4096 + 1 * (y 1).val = (y 1).val; rw [e1]; omega

/-- The block of the contracting factor at any point is the whole factor. -/
theorem iblk2_eq (c : Dev nD) (t : Fin cfg0.N) : (iblk m c 2 t : FVec Ideal S16x4096 .bf16) = (V m c main_v3 : S16x4096.Idx → EReal) := by
  obtain ⟨-, -, -, -, e0, e1, -⟩ := idx_facts t
  funext y
  unfold iblk
  rw [View.read_apply]
  show V m c main_v3 _ = V m c main_v3 _
  congr 1
  funext a
  apply Fin.ext
  match a with
  | ⟨0, _⟩ => show win0_2.index t (0 : Fin 2) * 16 + 1 * (y 0).val = (y 0).val; rw [e0]; omega
  | ⟨1, _⟩ => show win0_2.index t (1 : Fin 2) * 4096 + 1 * (y 1).val = (y 1).val; rw [e1]; omega

/-! ## What a point writes back, and the array after the run -/

/-- What point t writes back is its block of rows of `flatOut` of the arrays the region finds. -/
theorem flushed_eq (c : Dev nD) (t : Fin cfg0.N) :
    (dats m 0 c).flushed 3 t
      = ((cfg0.win 3).blk t).view.read (Elt Ideal) (flatOut (V m c main_v0) (V m c main_v2) (V m c main_v3)) := by
  show (cfg0.win 3).cut (grid0.coords t) ((dats m 0 c).after 3 t) = _
  rw [after0_3, out_eq (iblk m c 0 t) (iblk m c 1 t) (iblk m c 2 t), iblk1_eq m c t, iblk2_eq m c t]
  obtain ⟨-, -, -, -, -, -, e1, e31⟩ := idx_facts t
  funext y
  show blockOut (iblk m c 0 t) (V m c main_v2) (V m c main_v3) y
    = flatOut (V m c main_v0) (V m c main_v2) (V m c main_v3) (((cfg0.win 3).blk t).view.emb y)
  refine blockOut_eq_flatOut (iblk m c 0 t) (V m c main_v0) (V m c main_v2) (V m c main_v3) (win0_3.index t (0 : Fin 2) * 512)
    (by omega) (fun r k => iblk0_apply m c t r k _) y (((cfg0.win 3).blk t).view.emb y) ?_ ?_
  · show win0_3.index t (0 : Fin 2) * 512 + 1 * (y 0).val = win0_3.index t (0 : Fin 2) * 512 + (y 0).val
    omega
  · show win0_3.index t (1 : Fin 2) * 4096 + 1 * (y 1).val = (y 1).val
    rw [e1]; omega

/-- An index of the result array is in point t's block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v4).slice (win0_3.rect t)).set ↔ _
  rw [View.set_slice_whole, Rect.mem_set_unit]
  exact Iff.rfl

/-- The result array after the run: the 32 row blocks cover it, so it holds `flatOut` of the arrays the region finds. -/
theorem final (c : Dev nD) :
    (dats m 0 c).arrAt 3 cfg0.N = flatOut (V m c main_v0) (V m c main_v2) (V m c main_v3) :=
  (dats m 0 c).arrAt_eq_of_cover 3 _ (fun t _ => flushed_eq m c t) fun i => by
    have hi0 : (i 0).val < 16384 := (i 0).isLt
    have hi1 : (i 1).val < 4096 := (i 1).isLt
    obtain ⟨t, ht⟩ := idx_onto ⟨(i 0).val / 512, by omega⟩
    have q0 : win0_3.index t (0 : Fin 2) = (i 0).val / 512 := congrFun ht 0
    have q1 : win0_3.index t (1 : Fin 2) = 0 := congrFun ht 1
    refine ⟨t, flush0_3 t, ?_⟩
    rw [mem_blk]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 4096 ≤ (i 1).val ∧ (i 1).val < win0_3.index t (1 : Fin 2) * 4096 + 4096; omega

/-! ## The reshape after the region, and the run -/

/-- The program's result: the region's array reshaped, which is the low-rank projection of the three arguments. -/
theorem result_eq (c : Dev nD) :
    Pipeline.afterTail₀ cfgs (dats m) 0 (V0 m) [hostOps1] c main_v5
      = lowRank (m ((c : Thread nD τ).loc main_arg0)) (m ((c : Thread nD τ).loc main_arg1)) (m ((c : Thread nD τ).loc main_arg2)) := by
  have e : Pipeline.withArrays spec0 c (V0 m c) (fun w => (dats m 0 c).arrAt w cfg0.N) (Proc.devRef .tc (Pipeline.arrRef spec0 3))
      = flatOut (shapeCast S16384x4096 (m ((c : Thread nD τ).loc main_arg0) : S4x4096x4096.Idx → EReal) shapeCasts_S4x4096x4096_S16384x4096)
          (transpose S16x4096 [1, 0] (m ((c : Thread nD τ).loc main_arg1) : S4096x16.Idx → EReal) transposes_S4096x16_S16x4096_1_0)
          (m ((c : Thread nD τ).loc main_arg2) : S16x4096.Idx → EReal) :=
    (Pipeline.withArrays_arr spec0 launch0.win.arr_inj c (V0 m c) (fun w => (dats m 0 c).arrAt w cfg0.N) 3).trans
      ((final m c).trans (by rw [V_flat, V_At, V_B]))
  unfold Pipeline.afterTail₀
  show StableHlo.after hostOps1 _ (Proc.devRef .tc main_v5) = _
  after_results
  exact (congrArg (fun X : S16384x4096.Idx → EReal => shapeCast S4x4096x4096 X shapeCasts_S16384x4096_S4x4096x4096) e).trans
    (reshape_flatOut _ _ _ shapeCasts_S4x4096x4096_S16384x4096 shapeCasts_S16384x4096_S4x4096x4096 transposes_S4096x16_S16x4096_1_0)

/-- The idealized kernel's run: every weakly fair execution terminates with the result array at the low-rank
    projection of the arguments, and the arguments unchanged. -/
theorem run : θ_run defs (onTc (τ := τ) (main (F := Ideal))) ⟨m, fun _ => 0, ρ⟩ fun r => ∀ c : Dev nD,
      r.2.mem ((c.tc : Thread nD τ).loc main_v5)
        = lowRank (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Whole

end
-- ==== Proof.RefValue.lean ====
/-
  The idealized reference over the extended reals: its two `dot_general`s, read at an index, are the low-rank
  projection. The first contracts h[b, s, ·] with B[j, ·] over the 4096 positions, the second the sixteen results
  with A[d, ·]: entry (b, s, d) is Σ_j (Σ_k h[b, s, k] · B[j, k]) · A[d, j], which is `Cert.LowRank.lowRank` once the
  operand indices are named by their coordinates.
-/
import proofs.«428179_j72198400245861_3_alg».proof.Proof.Gen.ReferenceIdeal.Read
import proofs.«428179_j72198400245861_3_alg».proof.Proof.Spec

noncomputable section

open scoped BigOperators

namespace Cert.ReferenceIdeal.RefValue

open Cert.ReferenceIdeal Cert.ReferenceIdeal.Gen Cert.ReferenceIdeal.Read Cert.LowRank
open Idealize.ShloMosaic Idealize.ShloMosaic.ValueIdx

/-- The reference's result is the low-rank projection of its arguments. -/
theorem ref_eq (x0 : (⟨S4x4096x4096, .f32⟩ : BufTy).Contents (Elt Ideal)) (x1 : (⟨S4096x16, .f32⟩ : BufTy).Contents (Elt Ideal))
    (x2 : (⟨S16x4096, .f32⟩ : BufTy).Contents (Elt Ideal)) :
    val_main_v1 (F := Ideal) x0 x1 x2 = lowRank x0 x1 x2 := by
  funext i
  refine (val_main_v1_apply x0 x1 x2 i).trans ?_
  unfold lowRank proj
  refine Finset.sum_congr rfl fun j _ => congrArg₂ (· * ·) ?_ (congrArg x1 ?_)
  · refine (val_main_v0_apply x0 x2 _).trans ?_
    refine Finset.sum_congr rfl fun k _ => congrArg₂ (· * ·) (congrArg x0 ?_) (congrArg x2 ?_)
    · funext a
      match a with
      | ⟨0, _⟩ => rfl
      | ⟨1, _⟩ => rfl
      | ⟨2, _⟩ => rfl
    · funext a
      match a with
      | ⟨0, _⟩ => rfl
      | ⟨1, _⟩ => rfl
  · funext a
    match a with
    | ⟨0, _⟩ => rfl
    | ⟨1, _⟩ => rfl

end Cert.ReferenceIdeal.RefValue

end
-- ==== Proof.lean ====
/-
  A rank-16 projection  out = (h · Bᵀ) · Aᵀ  computed by a tiled kernel against the same projection computed by two
  whole contractions, over the extended reals.

  The kernel flattens h to 16384 rows, and for each block of 512 rows contracts the rows with B in four quarters of
  1024 positions, adds the quarters in order onto zero, and expands the sixteen coefficients by the four quarters of
  the transposed A; the reference contracts h with B over all 4096 positions and expands by A. Reading a float in a
  narrower format is the identity on extended reals, and addition of extended reals is commutative and associative
  (at the infinities too), so the sum of the four quarters is the whole contraction: both programs end with
  out[b, s, d] = Σ_j (Σ_k h[b, s, k] · B[j, k]) · A[d, j]  (`Cert.LowRank.lowRank`). No finiteness of the inputs is used.

  The kernel's frames are the generated ones; the reference's frame is its generated run with the result dropped; the
  idealization rewrote nothing, so `preserves` is trivial; `algebraic` joins the kernel's run (Proof/ArrayValue.lean) and
  the reference's generated run read at an index (Proof/RefValue.lean) at the one function.
-/
import proofs.«428179_j72198400245861_3_alg».proof.Defs
import proofs.«428179_j72198400245861_3_alg».proof.Proof.Gen.Kernel
import proofs.«428179_j72198400245861_3_alg».proof.Proof.Gen.Kernel.Skeleton
import proofs.«428179_j72198400245861_3_alg».proof.Proof.Gen.Kernel.Launch
import proofs.«428179_j72198400245861_3_alg».proof.Proof.Gen.Kernel.Points
import proofs.«428179_j72198400245861_3_alg».proof.Proof.Gen.Kernel.Frame
import proofs.«428179_j72198400245861_3_alg».proof.Proof.Gen.KernelIdeal
import proofs.«428179_j72198400245861_3_alg».proof.Proof.Gen.KernelIdeal.Skeleton
import proofs.«428179_j72198400245861_3_alg».proof.Proof.Gen.KernelIdeal.Launch
import proofs.«428179_j72198400245861_3_alg».proof.Proof.Gen.KernelIdeal.Points
import proofs.«428179_j72198400245861_3_alg».proof.Proof.Gen.KernelIdeal.Frame
import proofs.«428179_j72198400245861_3_alg».proof.Proof.Gen.ReferenceIdeal
import proofs.«428179_j72198400245861_3_alg».proof.Proof.Gen.ReferenceIdeal.Run
import proofs.«428179_j72198400245861_3_alg».proof.Proof.Gen.ReferenceIdeal.Read
import proofs.«428179_j72198400245861_3_alg».proof.Proof.Gen.Pre_finite_inputs
import proofs.«428179_j72198400245861_3_alg».proof.Proof.ArrayValue
import proofs.«428179_j72198400245861_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference terminates and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the low-rank projection of the arguments they agree on. -/
theorem algebraic : Cert.algebraic_KernelIdeal_ReferenceIdeal := by
  intro m ρ m' ρ' _ hagree
  refine ⟨fun c => Cert.LowRank.lowRank (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v1_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
